-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384x1 : Shape := ⟨3, ![1024, 16384, 1]⟩
abbrev S1024x1 : Shape := ⟨2, ![1024, 1]⟩
abbrev S_ : Shape := ⟨0, ![]⟩

class Facts : Prop where
  bcast_S_S1024x16384x1 : S_.BroadcastsInDim S1024x16384x1 (![] : Fin 0 → Fin S1024x16384x1.rank)
  reducesTo_S1024x16384x1_S_d0_1_2 : S1024x16384x1.ReducesTo [0, 1, 2] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S1024x16384x1 .f32) (main_arg1 : FVec F S1024x1 .f32) (main_arg2 : FVec F S1024x1 .f32) (main_arg3 : FVec F S1024x1 .f32) : IVec S_ 1 :=
  let main_v0 : FVec F S1024x16384x1 .f32 := Host.absf main_arg0
  let main_cst : FVec F S_ .f32 := constant S_ .f32 0x7F800000#32
  let main_v1 : FVec F S1024x16384x1 .f32 := broadcastInDim S1024x16384x1 ![] bcast_S_S1024x16384x1 main_cst
  let main_v2 : IVec S1024x16384x1 1 := cmpf .olt main_v0 main_v1
  let main_c : IVec S_ 1 := constantI S_ 1 1#1
  let main_v3 : IVec S_ 1 := (fun x v => Host.reduce IntOp.andi x v reducesTo_S1024x16384x1_S_d0_1_2 h_S_) main_v2 main_c
  let main_v4 : FVec F S1024x1 .f32 := Host.absf main_arg1
  let main_cst_0 : FVec F S_ .f32 := constant S_ .f32 0x7F800000#32
  let main_v5 : FVec F S1024x1 .f32 := broadcastInDim S1024x1 ![] bcast_S_S1024x1 main_cst_0
  let main_v6 : IVec S1024x1 1 := cmpf .olt main_v4 main_v5
  let main_c_1 : IVec S_ 1 := constantI S_ 1 1#1
  let main_v7 : IVec S_ 1 := (fun x v => Host.reduce IntOp.andi x v reducesTo_S1024x1_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S1024x16384x1 : Shape := ⟨3, ![1024, 16384, 1]⟩
abbrev S1024x1 : Shape := ⟨2, ![1024, 1]⟩
abbrev S1024x16384 : Shape := ⟨2, ![1024, 16384]⟩
abbrev S256x1024 : Shape := ⟨2, ![256, 1024]⟩
abbrev S256x1 : Shape := ⟨2, ![256, 1]⟩
abbrev S1024x16384x2 : Shape := ⟨3, ![1024, 16384, 2]⟩

abbrev nBuf : Space → Nat
  | .hbm => 20
  | .vmem => 20
  | .smem => 0
  | _ => 0

abbrev bufTy : (tb : Table) → Fin (tcTables nBuf tb) → BufTy
  | .hbm, ⟨0, _⟩ => ⟨S1024x16384x1, .f32⟩
  | .hbm, ⟨1, _⟩ => ⟨S1024x1, .f32⟩
  | .hbm, ⟨2, _⟩ => ⟨S1024x1, .f32⟩
  | .hbm, ⟨3, _⟩ => ⟨S1024x1, .f32⟩
  | .hbm, ⟨4, _⟩ => ⟨S1024x16384, .f32⟩
  | .hbm, ⟨5, _⟩ => ⟨S1024x16384, .f32⟩
  | .hbm, ⟨6, _⟩ => ⟨S1024x16384, .f32⟩
  | .hbm, ⟨7, _⟩ => ⟨S1024x16384, .f32⟩
  | .hbm, ⟨8, _⟩ => ⟨S1024x16384, .f32⟩
  | .hbm, ⟨9, _⟩ => ⟨S1024x16384, .f32⟩
  | .hbm, ⟨10, _⟩ => ⟨S1024x16384, .f32⟩
  | .hbm, ⟨11, _⟩ => ⟨S1024x16384x1, .f32⟩
  | .hbm, ⟨12, _⟩ => ⟨S1024x16384x1, .f32⟩
  | .hbm, ⟨13, _⟩ => ⟨S1024x16384x2, .f32⟩
  | .hbm, ⟨14, _⟩ => ⟨S1024x16384x1, .f32⟩
  | .hbm, ⟨15, _⟩ => ⟨S1024x16384x1, .f32⟩
  | .hbm, ⟨16, _⟩ => ⟨S1024x16384x2, .f32⟩
  | .hbm, ⟨17, _⟩ => ⟨S1024x16384x1, .f32⟩
  | .hbm, ⟨18, _⟩ => ⟨S1024x16384x1, .f32⟩
  | .hbm, ⟨19, _⟩ => ⟨S1024x16384x2, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S1024x16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S1024x16384x1_S1024x16384 : S1024x16384x1.ShapeCasts S1024x16384
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  broadcasts_S256x1_S256x1024 : S256x1.Broadcasts S256x1024
  bcast_S1024x16384_S1024x16384x1_0_1 : S1024x16384.BroadcastsInDim S1024x16384x1 (![0, 1] : Fin 2 → Fin S1024x16384x1.rank)
  concatenates_S1024x16384x1_S1024x16384x1_S1024x16384x2_d2 : Shape.Concatenates [S1024x16384x1, S1024x16384x1] S1024x16384x2 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x16384.size a
  hwx0_0 : ∀ i : grid0.Coords, EltTy.bits .f32 = 32 ∨ (Rect.block (s := S1024x16384) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S1024x1.size a
  hwx0_3 : ∀ i : grid0.Coords, EltTy.bits .f32 = 32 ∨ (Rect.block (s := S1024x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x16384.size a
  hwx0_4 : ∀ i : grid0.Coords, EltTy.bits .f32 = 32 ∨ (Rect.block (s := S1024x16384) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S1024x16384.size a
  hwx0_5 : ∀ i : grid0.Coords, EltTy.bits .f32 = 32 ∨ (Rect.block (s := S1024x16384) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S1024x16384.size a
  hwx0_6 : ∀ i : grid0.Coords, EltTy.bits .f32 = 32 ∨ (Rect.block (s := S1024x16384) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S1024x16384.size a
  hwx0_7 : ∀ i : grid0.Coords, EltTy.bits .f32 = 32 ∨ (Rect.block (s := S1024x16384) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S1024x16384.size a
  hwx0_8 : ∀ i : grid0.Coords, EltTy.bits .f32 = 32 ∨ (Rect.block (s := S1024x16384) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S1024x16384.size a
  hwx0_9 : ∀ i : grid0.Coords, EltTy.bits .f32 = 32 ∨ (Rect.block (s := S1024x16384) S256x1024.size (cc0_transform_9 i) (hinb0_9 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_3) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_4) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v1_5) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x16384x1 : Shape := ⟨3, ![1024, 16384, 1]⟩
abbrev S1024x1 : Shape := ⟨2, ![1024, 1]⟩
abbrev S1024x1x1 : Shape := ⟨3, ![1024, 1, 1]⟩
abbrev S1024x16384x2 : Shape := ⟨3, ![1024, 16384, 2]⟩

abbrev nBuf : Space → Nat
  | .hbm => 37
  | .vmem => 0
  | .smem => 0
  | _ => 0

abbrev bufTy : (tb : Table) → Fin (tcTables nBuf tb) → BufTy
  | .hbm, ⟨0, _⟩ => ⟨S1024x16384x1, .f32⟩
  | .hbm, ⟨1, _⟩ => ⟨S1024x1, .f32⟩
  | .hbm, ⟨2, _⟩ => ⟨S1024x1, .f32⟩
  | .hbm, ⟨3, _⟩ => ⟨S1024x1, .f32⟩
  | .hbm, ⟨4, _⟩ => ⟨S1024x1x1, .f32⟩
  | .hbm, ⟨5, _⟩ => ⟨S1024x1x1, .f32⟩
  | .hbm, ⟨6, _⟩ => ⟨S1024x1x1, .f32⟩
  | .hbm, ⟨7, _⟩ => ⟨S1024x16384x1, .f32⟩
  | .hbm, ⟨8, _⟩ => ⟨S1024x16384x1, .f32⟩
  | .hbm, ⟨9, _⟩ => ⟨S1024x16384x1, .f32⟩
  | .hbm, ⟨10, _⟩ => ⟨S1024x16384x1, .f32⟩
  | .hbm, ⟨11, _⟩ => ⟨S1024x16384x1, .f32⟩
  | .hbm, ⟨12, _⟩ => ⟨S1024x16384x1, .f32⟩
  | .hbm, ⟨13, _⟩ => ⟨S1024x16384x1, .f32⟩
  | .hbm, ⟨14, _⟩ => ⟨S1024x16384x1, .f32⟩
  | .hbm, ⟨15, _⟩ => ⟨S1024x16384x1, .f32⟩
  | .hbm, ⟨16, _⟩ => ⟨S1024x16384x1, .f32⟩
  | .hbm, ⟨17, _⟩ => ⟨S1024x16384x2, .f32⟩
  | .hbm, ⟨18, _⟩ => ⟨S1024x1x1, .f32⟩
  | .hbm, ⟨19, _⟩ => ⟨S1024x1x1, .f32⟩
  | .hbm, ⟨20, _⟩ => ⟨S1024x16384x1, .f32⟩
  | .hbm, ⟨21, _⟩ => ⟨S1024x16384x1, .f32⟩
  | .hbm, ⟨22, _⟩ => ⟨S1024x1x1, .f32⟩
  | .hbm, ⟨23, _⟩ => ⟨S1024x16384x1, .f32⟩
  | .hbm, ⟨24, _⟩ => ⟨S1024x16384x1, .f32⟩
  | .hbm, ⟨25, _⟩ => ⟨S1024x16384x2, .f32⟩
  | .hbm, ⟨26, _⟩ => ⟨S1024x1x1, .f32⟩
  | .hbm, ⟨27, _⟩ => ⟨S1024x1x1, .f32⟩
  | .hbm, ⟨28, _⟩ => ⟨S1024x1x1, .f32⟩
  | .hbm, ⟨29, _⟩ => ⟨S1024x16384x1, .f32⟩
  | .hbm, ⟨30, _⟩ => ⟨S1024x16384x1, .f32⟩
  | .hbm, ⟨31, _⟩ => ⟨S1024x1x1, .f32⟩
  | .hbm, ⟨32, _⟩ => ⟨S1024x1x1, .f32⟩
  | .hbm, ⟨33, _⟩ => ⟨S1024x1x1, .f32⟩
  | .hbm, ⟨34, _⟩ => ⟨S1024x16384x1, .f32⟩
  | .hbm, ⟨35, _⟩ => ⟨S1024x16384x1, .f32⟩
  | .hbm, ⟨36, _⟩ => ⟨S1024x16384x2, .f32⟩
  | _, _ => ⟨S1024x16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]

class Facts₀ : Prop where
  bcast_S1024x1_S1024x1x1_0_2 : S1024x1.BroadcastsInDim S1024x1x1 (![0, 2] : Fin 2 → Fin S1024x1x1.rank)
  bcast_S1024x1x1_S1024x16384x1_0_1_2 : S1024x1x1.BroadcastsInDim S1024x16384x1 (![0, 1, 2] : Fin 3 → Fin S1024x16384x1.rank)
  concatenates_S1024x16384x1_S1024x16384x1_S1024x16384x2_d2 : Shape.Concatenates [S1024x16384x1, S1024x16384x1] S1024x16384x2 2

variable [Facts₀]

class Facts : Prop extends Facts₀ where

variable [Facts]
-- ==== Proof.Motion.lean ====
/-
  The motion on a circle, as extended-real functions of the argument arrays.

  For batch row `b` and time sample `s` the phase is `θ = ω[b]·t[b,s] + θ₀[b]`, and every one of the six result
  planes is `amp[b] · trig θ` for an amplitude that depends on the row only and `trig` one of cosine, sine:

    position      r·cos θ,            r·sin θ
    velocity      −(r·ω)·sin θ,       (r·ω)·cos θ
    acceleration  −((r·ω)·ω)·cos θ,   −((r·ω)·ω)·sin θ

  `wave` is that common form over a time array of shape [1024, 16384, 1] (the reference's layout), `wave2` the same
  over the time array reshaped to [1024, 16384] (the layout the kernel's planes have); `wave_of_wave2` says the
  second, read at the first two coordinates, is the first; `position`, `velocity`, `acceleration` pair the planes
  into the three [1024, 16384, 2] results. The two programs spell the negated amplitudes
  differently — `0 − r·ω` against `(−r)·ω` — and `zero_sub_mul`, `neg_mul_mul` are the two laws of the extended
  reals that join them; neither needs the operands finite.
-/
import Idealize.ShloMosaic.PureOps.Ideal
import Idealize.ShloMosaic.Lib.ValueIdx

noncomputable section

namespace Cert.Motion

open Idealize.ShloMosaic Idealize.ShloMosaic.ValueIdx

/-- The time array as the programs receive it, a row vector per batch entry, and the planes' layout. -/
abbrev SBT1 : Shape := ⟨3, ![1024, 16384, 1]⟩
abbrev SBT : Shape := ⟨2, ![1024, 16384]⟩
abbrev SB1 : Shape := ⟨2, ![1024, 1]⟩
abbrev SBT2 : Shape := ⟨3, ![1024, 16384, 2]⟩

/-- Row `b` of a [1024, 1] column. -/
abbrev row (x : SB1.Idx → EReal) (b : Fin 1024) : EReal := x (ix2 b 0)

/-- `amp[b] · f (ω[b]·t[i] + θ₀[b])` at an index `i = (b, s, 0)` of the time array. -/
def wave (f : EReal → EReal) (amp : Fin 1024 → EReal) (t : SBT1.Idx → EReal) (th0 w : SB1.Idx → EReal) :
    SBT1.Idx → EReal := fun i => amp (i 0) * f (row w (i 0) * t i + row th0 (i 0))

/-- The same over the time array reshaped to [1024, 16384], at `j = (b, s)`. -/
def wave2 (f : EReal → EReal) (amp : Fin 1024 → EReal) (t2 : SBT.Idx → EReal) (th0 w : SB1.Idx → EReal) :
    SBT.Idx → EReal := fun j => amp (j 0) * f (row w (j 0) * t2 j + row th0 (j 0))

/-- The amplitudes: `r`, `r·ω`, `(r·ω)·ω` and the negatives of the last two. -/
def ampR (r0 : SB1.Idx → EReal) : Fin 1024 → EReal := fun b => row r0 b
def ampRW (r0 w : SB1.Idx → EReal) : Fin 1024 → EReal := fun b => row r0 b * row w b
def ampRWW (r0 w : SB1.Idx → EReal) : Fin 1024 → EReal := fun b => row r0 b * row w b * row w b
def ampNegRW (r0 w : SB1.Idx → EReal) : Fin 1024 → EReal := fun b => -(row r0 b * row w b)
def ampNegRWW (r0 w : SB1.Idx → EReal) : Fin 1024 → EReal := fun b => -(row r0 b * row w b * row w b)

/-- A plane over the reshaped time array, read at an index's first two coordinates, is the plane over the time
    array itself, when the reshaped array holds the same numbers (`h`). -/
theorem wave_of_wave2 (f : EReal → EReal) (amp : Fin 1024 → EReal) (t : SBT1.Idx → EReal) (t2 : SBT.Idx → EReal)
    (th0 w : SB1.Idx → EReal) (i : SBT1.Idx) (h : t2 (ix2 (i 0) (i 1)) = t i) :
    wave2 f amp t2 th0 w (ix2 (i 0) (i 1)) = wave f amp t th0 w i := by
  unfold wave2 wave
  rw [h]

/-- A product of an amplitude with `f` of a phase is the plane at `k` once the four numbers are the arrays' entries
    at `k`'s row and at `k`. -/
theorem wave2_of_entries (f : EReal → EReal) (amp : Fin 1024 → EReal) (t2 : SBT.Idx → EReal) (th0 w : SB1.Idx → EReal)
    (k : SBT.Idx) (a tv thv wv : EReal) (ha : a = amp (k 0)) (ht : tv = t2 k) (hth : thv = row th0 (k 0))
    (hw : wv = row w (k 0)) : a * f (wv * tv + thv) = wave2 f amp t2 th0 w k := by
  subst ha ht hth hw
  rfl

/-- `0 − x = −x` on the extended reals. -/
theorem zero_sub' (x : EReal) : 0 - x = -x := by rw [sub_eq_add_neg, zero_add]

/-- `(−a)·b = −(a·b)`, and once more: `((−a)·b)·c = −((a·b)·c)`. -/
theorem neg_mul_mul (a b c : EReal) : -a * b * c = -(a * b * c) := by rw [EReal.neg_mul, EReal.neg_mul]

/-! ## The three results -/

/-- Two [1024, 16384, 1] planes joined on the last axis make a [1024, 16384, 2] array. -/
theorem joins_planes : Shape.Concatenates [SBT1, SBT1] SBT2 2 := by decide

/-- `(a, b)` as the two components of a [1024, 16384, 2] array. -/
def stack (a b : SBT1.Idx → EReal) : SBT2.Idx → EReal := concatenate SBT2 2 [⟨SBT1, a⟩, ⟨SBT1, b⟩] joins_planes

/-- Position `r·(cos θ, sin θ)`, velocity `(r·ω)·(−sin θ, cos θ)`, acceleration `−((r·ω)·ω)·(cos θ, sin θ)`. -/
def position (t : SBT1.Idx → EReal) (r0 th0 w : SB1.Idx → EReal) : SBT2.Idx → EReal :=
  stack (wave Ideal.cos (ampR r0) t th0 w) (wave Ideal.sin (ampR r0) t th0 w)
def velocity (t : SBT1.Idx → EReal) (r0 th0 w : SB1.Idx → EReal) : SBT2.Idx → EReal :=
  stack (wave Ideal.sin (ampNegRW r0 w) t th0 w) (wave Ideal.cos (ampRW r0 w) t th0 w)
def acceleration (t : SBT1.Idx → EReal) (r0 th0 w : SB1.Idx → EReal) : SBT2.Idx → EReal :=
  stack (wave Ideal.cos (ampNegRWW r0 w) t th0 w) (wave Ideal.sin (ampNegRWW r0 w) t th0 w)

end Cert.Motion

end
-- ==== Proof.RefPlanes.lean ====
/-
  The reference's six planes are the circular motion's.

  The reference broadcasts the three [1024, 1] columns along the time axis, forms the phase `ω·t + θ₀`, takes its
  cosine and sine, and multiplies by the row amplitudes `r`, `(−r)·ω`, `r·ω`, `((−r)·ω)·ω`. Read at an index
  `i = (b, s, 0)` every broadcast column is its entry `b`, so each plane is `Motion.wave` of its amplitude; the
  negated amplitudes meet `Motion`'s by `(−a)·b = −(a·b)`.
-/
import proofs.«105996_j14250701488835_1_alg».proof.Proof.RefRead
import proofs.«105996_j14250701488835_1_alg».proof.Proof.Motion

noncomputable section

namespace Cert.ReferenceIdeal.Planes

open Cert.ReferenceIdeal Cert.ReferenceIdeal.ReadP Idealize.ShloMosaic Idealize.ShloMosaic.ValueIdx Cert.Motion

/-- An index of a [1024, 1] column is its row and `0`. -/
theorem col_idx (j : S1024x1.Idx) (b : Fin 1024) (h : j 0 = b) : j = ix2 b 0 := by
  subst h
  funext a
  match a with
  | ⟨0, _⟩ => rfl
  | ⟨1, h⟩ =>
    apply Fin.ext
    have h1 : (j ⟨1, h⟩).val < 1 := (j ⟨1, h⟩).isLt
    show (j ⟨1, h⟩).val = 0
    omega

variable (x0 : (⟨S1024x16384x1, .f32⟩ : BufTy).Contents (Elt Ideal)) (x1 x2 x3 : (⟨S1024x1, .f32⟩ : BufTy).Contents (Elt Ideal))

/-- Each column, broadcast to [1024, 1, 1], read at a [1024, 1, 1] index `k`, is its entry at `k`'s row. -/
theorem r_at (k : S1024x1x1.Idx) : val_main_v0 (F := Ideal) x1 k = row x1 (k 0) := by
  rw [val_main_v0_apply]; exact congrArg x1 (col_idx _ _ rfl)
theorem th_at (k : S1024x1x1.Idx) : val_main_v1 (F := Ideal) x2 k = row x2 (k 0) := by
  rw [val_main_v1_apply]; exact congrArg x2 (col_idx _ _ rfl)
theorem w_at (k : S1024x1x1.Idx) : val_main_v2 (F := Ideal) x3 k = row x3 (k 0) := by
  rw [val_main_v2_apply]; exact congrArg x3 (col_idx _ _ rfl)

/-- The phase at `i`. -/
theorem phase_at (i : S1024x16384x1.Idx) :
    val_main_v6 (F := Ideal) x0 x2 x3 i = row x3 (i 0) * x0 i + row x2 (i 0) := by
  rw [val_main_v6_apply, val_main_v4_apply, val_main_v3_apply, val_main_v5_apply, w_at, th_at]
  rfl

theorem cos_at (i : S1024x16384x1.Idx) :
    val_main_v7 (F := Ideal) x0 x2 x3 i = Ideal.cos (row x3 (i 0) * x0 i + row x2 (i 0)) := by
  rw [val_main_v7_apply, phase_at, Ideal.hostUnary_cos_def]
theorem sin_at (i : S1024x16384x1.Idx) :
    val_main_v8 (F := Ideal) x0 x2 x3 i = Ideal.sin (row x3 (i 0) * x0 i + row x2 (i 0)) := by
  rw [val_main_v8_apply, phase_at, Ideal.hostUnary_sin_def]

/-- The position's planes. -/
theorem qx_eq : val_main_v10 (F := Ideal) x0 x1 x2 x3 = wave Ideal.cos (ampR x1) x0 x2 x3 := by
  funext i
  rw [val_main_v10_apply, val_main_v9_apply, r_at, cos_at]
  rfl
theorem qy_eq : val_main_v12 (F := Ideal) x0 x1 x2 x3 = wave Ideal.sin (ampR x1) x0 x2 x3 := by
  funext i
  rw [val_main_v12_apply, val_main_v11_apply, r_at, sin_at]
  rfl

/-- The velocity's: `(−r)·ω = −(r·ω)`. -/
theorem vx_eq : val_main_v17 (F := Ideal) x0 x1 x2 x3 = wave Ideal.sin (ampNegRW x1 x3) x0 x2 x3 := by
  funext i
  rw [val_main_v17_apply, val_main_v16_apply, val_main_v15_apply, val_main_v14_apply, r_at, w_at, sin_at]
  show -(row x1 (i 0)) * row x3 (i 0) * _ = -(row x1 (i 0) * row x3 (i 0)) * _
  rw [EReal.neg_mul]
theorem vy_eq : val_main_v20 (F := Ideal) x0 x1 x2 x3 = wave Ideal.cos (ampRW x1 x3) x0 x2 x3 := by
  funext i
  rw [val_main_v20_apply, val_main_v19_apply, val_main_v18_apply, r_at, w_at, cos_at]
  rfl

/-- The acceleration's: `((−r)·ω)·ω = −((r·ω)·ω)`. -/
theorem ax_eq : val_main_v26 (F := Ideal) x0 x1 x2 x3 = wave Ideal.cos (ampNegRWW x1 x3) x0 x2 x3 := by
  funext i
  rw [val_main_v26_apply, val_main_v25_apply, val_main_v24_apply, val_main_v23_apply, val_main_v22_apply, r_at, w_at, cos_at]
  show -(row x1 (i 0)) * row x3 (i 0) * row x3 (i 0) * _ = -(row x1 (i 0) * row x3 (i 0) * row x3 (i 0)) * _
  rw [Motion.neg_mul_mul]
theorem ay_eq : val_main_v31 (F := Ideal) x0 x1 x2 x3 = wave Ideal.sin (ampNegRWW x1 x3) x0 x2 x3 := by
  funext i
  rw [val_main_v31_apply, val_main_v30_apply, val_main_v29_apply, val_main_v28_apply, val_main_v27_apply, r_at, w_at, sin_at]
  show -(row x1 (i 0)) * row x3 (i 0) * row x3 (i 0) * _ = -(row x1 (i 0) * row x3 (i 0) * row x3 (i 0)) * _
  rw [Motion.neg_mul_mul]

/-- The reference's three results: each pair of planes joined on the last axis. -/
theorem position_eq : val_main_v13 (F := Ideal) x0 x1 x2 x3 = position x0 x1 x2 x3 := by
  unfold val_main_v13
  rw [qx_eq, qy_eq]
  rfl
theorem velocity_eq : val_main_v21 (F := Ideal) x0 x1 x2 x3 = velocity x0 x1 x2 x3 := by
  unfold val_main_v21
  rw [vx_eq, vy_eq]
  rfl
theorem acceleration_eq : val_main_v32 (F := Ideal) x0 x1 x2 x3 = acceleration x0 x1 x2 x3 := by
  unfold val_main_v32
  rw [ax_eq, ay_eq]
  rfl

end Cert.ReferenceIdeal.Planes

end
-- ==== Proof.KernelBlock.lean ====
/-
  The kernel body's six stored values, read at an index of the block.

  The body loads a [256, 1024] block `x0` of the reshaped time array and the matching [256, 1] blocks `x1`, `x2`, `x3`
  of the radius, the initial angle and the angular velocity. Every stored value is a product of a column
  broadcast along the row with the cosine or sine of the phase `x3·x0 + x2`, so at `(p, q)` it is
  `amp p · trig (x3[p]·x0[p,q] + x2[p])`, the amplitude one of `x1`, `x1·x3`, `0 − x1·x3`, `0 − (x1·x3)·x3`.
-/
import proofs.«105996_j14250701488835_1_alg».proof.Proof.Gen.KernelIdeal.Skeleton
import proofs.«105996_j14250701488835_1_alg».proof.Proof.Motion
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Motion

/-- A [256, 1] column broadcast to [256, 1024], at `(p, q)`, is the column's entry `p`. -/
theorem bcast_col (x : FVec Ideal S256x1 .f32) (p : Fin 256) (q : Fin 1024) :
    broadcastTo S256x1024 x broadcasts_S256x1_S256x1024 (ix2 p q) = x (ix2 p 0) :=
  broadcastTo_apply x broadcasts_S256x1_S256x1024 (ix2 p q) (ix2 p 0) (fun a => match a with
    | ⟨0, _⟩ => by show p.val = if (256 : Nat) = 1 then 0 else p.val; rw [if_neg (by decide)]
    | ⟨1, _⟩ => by show 0 = if (1 : Nat) = 1 then 0 else q.val; rw [if_pos rfl])

/-- The phase at `(p, q)`: `x3[p]·x0[p,q] + x2[p]`. -/
theorem phase_apply (x0 : Vec Ideal S256x1024 .f32) (x2 x3 : Vec Ideal S256x1 .f32) (p : Fin 256) (q : Fin 1024) :
    k0_pay2 x0 x2 x3 (ix2 p q) = x3 (ix2 p 0) * x0 (ix2 p q) + x2 (ix2 p 0) := by
  unfold k0_pay2
  rw [addf_apply, mulf_apply, bcast_col, bcast_col, shapeCast_self]

theorem cos_apply (x0 : Vec Ideal S256x1024 .f32) (x2 x3 : Vec Ideal S256x1 .f32) (p : Fin 256) (q : Fin 1024) :
    k0_pay3 x0 x2 x3 (ix2 p q) = Ideal.cos (x3 (ix2 p 0) * x0 (ix2 p q) + x2 (ix2 p 0)) := by
  unfold k0_pay3
  show FloatOps.cos (k0_pay2 x0 x2 x3 (ix2 p q)) = _
  rw [phase_apply, Ideal.cos_def]

theorem sin_apply (x0 : Vec Ideal S256x1024 .f32) (x2 x3 : Vec Ideal S256x1 .f32) (p : Fin 256) (q : Fin 1024) :
    k0_pay4 x0 x2 x3 (ix2 p q) = Ideal.sin (x3 (ix2 p 0) * x0 (ix2 p q) + x2 (ix2 p 0)) := by
  unfold k0_pay4
  show FloatOps.sin (k0_pay2 x0 x2 x3 (ix2 p q)) = _
  rw [phase_apply, Ideal.sin_def]

/-- `r·ω` and `(r·ω)·ω`, row by row. -/
theorem rw_apply (x1 x3 : Vec Ideal S256x1 .f32) (p : Fin 256) :
    k0_pay5 x1 x3 (ix2 p 0) = x1 (ix2 p 0) * x3 (ix2 p 0) := rfl
theorem rww_apply (x1 x3 : Vec Ideal S256x1 .f32) (p : Fin 256) :
    k0_pay6 x1 x3 (ix2 p 0) = x1 (ix2 p 0) * x3 (ix2 p 0) * x3 (ix2 p 0) := rfl

/-- The zero splat less a column is the column negated. -/
theorem zero_sub_col (x : FVec Ideal S256x1 .f32) (p : Fin 256) :
    subf (broadcast S256x1 (Scalar.ofBits (F := Ideal) .f32 0x00000000#32)) x (ix2 p 0) = -(x (ix2 p 0)) := by
  rw [subf_apply, broadcast_apply]
  show Ideal.ofBits .f32 0x00000000#32 - _ = _
  rw [Ideal.ofBits_zero_f32, Motion.zero_sub']

/-- The six stored values at `(p, q)`. -/
theorem qx_apply (x0 : Vec Ideal S256x1024 .f32) (x1 x2 x3 : Vec Ideal S256x1 .f32) (p : Fin 256) (q : Fin 1024) :
    k0_pay7 x0 x1 x2 x3 (ix2 p q) = x1 (ix2 p 0) * Ideal.cos (x3 (ix2 p 0) * x0 (ix2 p q) + x2 (ix2 p 0)) := by
  unfold k0_pay7
  rw [mulf_apply, bcast_col, cos_apply]

theorem qy_apply (x0 : Vec Ideal S256x1024 .f32) (x1 x2 x3 : Vec Ideal S256x1 .f32) (p : Fin 256) (q : Fin 1024) :
    k0_pay8 x0 x1 x2 x3 (ix2 p q) = x1 (ix2 p 0) * Ideal.sin (x3 (ix2 p 0) * x0 (ix2 p q) + x2 (ix2 p 0)) := by
  unfold k0_pay8
  rw [mulf_apply, bcast_col, sin_apply]

theorem vx_apply (x0 : Vec Ideal S256x1024 .f32) (x1 x2 x3 : Vec Ideal S256x1 .f32) (p : Fin 256) (q : Fin 1024) :
    k0_pay9 x0 x1 x2 x3 (ix2 p q)
      = -(x1 (ix2 p 0) * x3 (ix2 p 0)) * Ideal.sin (x3 (ix2 p 0) * x0 (ix2 p q) + x2 (ix2 p 0)) := by
  unfold k0_pay9
  rw [mulf_apply, bcast_col, sin_apply, zero_sub_col, rw_apply]

theorem vy_apply (x0 : Vec Ideal S256x1024 .f32) (x1 x2 x3 : Vec Ideal S256x1 .f32) (p : Fin 256) (q : Fin 1024) :
    k0_pay10 x0 x1 x2 x3 (ix2 p q)
      = x1 (ix2 p 0) * x3 (ix2 p 0) * Ideal.cos (x3 (ix2 p 0) * x0 (ix2 p q) + x2 (ix2 p 0)) := by
  unfold k0_pay10
  rw [mulf_apply, bcast_col, cos_apply, rw_apply]

theorem ax_apply (x0 : Vec Ideal S256x1024 .f32) (x1 x2 x3 : Vec Ideal S256x1 .f32) (p : Fin 256) (q : Fin 1024) :
    k0_pay11 x0 x1 x2 x3 (ix2 p q)
      = -(x1 (ix2 p 0) * x3 (ix2 p 0) * x3 (ix2 p 0)) * Ideal.cos (x3 (ix2 p 0) * x0 (ix2 p q) + x2 (ix2 p 0)) := by
  unfold k0_pay11
  rw [mulf_apply, bcast_col, cos_apply, zero_sub_col, rww_apply]

theorem ay_apply (x0 : Vec Ideal S256x1024 .f32) (x1 x2 x3 : Vec Ideal S256x1 .f32) (p : Fin 256) (q : Fin 1024) :
    k0_pay1 (k0_pay4 x0 x2 x3) (k0_pay6 x1 x3) (Scalar.ofBits (F := Ideal) .f32 0x00000000#32) (ix2 p q)
      = -(x1 (ix2 p 0) * x3 (ix2 p 0) * x3 (ix2 p 0)) * Ideal.sin (x3 (ix2 p 0) * x0 (ix2 p q) + x2 (ix2 p 0)) := by
  unfold k0_pay1
  rw [mulf_apply, bcast_col, sin_apply, zero_sub_col, rww_apply]

end Cert.KernelIdeal.Block

end
-- ==== Proof.KernelPlanes.lean ====
/-
  The six planes the region leaves, as whole arrays.

  The grid has 4 × 16 points; point `t` works on rows `256·(t / 16) …` and columns `1024·(t % 16) …`: the time
  block and the six output blocks sit at block index `(t / 16, t % 16)`, the three column blocks at `(t / 16, 0)`.
  So entry `(p, q)` of every block at `t` belongs to array index `(256·(t/16) + p, 1024·(t%16) + q)`, what point `t`
  writes back to an output is that block of the corresponding `Motion.wave2` plane, and the 64 blocks cover the
  [1024, 16384] array: after the region each output array is its plane.
-/
import proofs.«105996_j14250701488835_1_alg».proof.Proof.Gen.KernelIdeal.Frame
import proofs.«105996_j14250701488835_1_alg».proof.Proof.KernelBlock
import Idealize.ShloMosaic.Lib.Pipeline.Value

set_option maxRecDepth 16384

noncomputable section

namespace Cert.KernelIdeal.Planes

open Cert.KernelIdeal Cert.KernelIdeal.Gen Cert.KernelIdeal.Block Idealize.ShloMosaic Idealize.ShloMosaic.TcCoe
open Idealize.SL.Sem Idealize.ShloMosaic.ValueIdx Cert.Motion
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The four arrays the region reads, as it finds them. -/
abbrev tArr (c : Dev nD) : Vec Ideal S1024x16384 .f32 := V m c main_v0
abbrev rArr (c : Dev nD) : Vec Ideal S1024x1 .f32 := V m c main_arg1
abbrev thArr (c : Dev nD) : Vec Ideal S1024x1 .f32 := V m c main_arg2
abbrev wArr (c : Dev nD) : Vec Ideal S1024x1 .f32 := V m c main_arg3

/-- The input windows' block indices at point `t`. -/
theorem idx_in : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0 :=
  (by decide +kernel : ∀ t : Fin grid0.N, _)

/-- Entry `(p, q)` of the time block at `t` is the array's entry at `k = (256·(t/16) + p, 1024·(t%16) + q)`. -/
theorem tblk_apply (c : Dev nD) (t : Fin cfg0.N) (p : Fin 256) (q : Fin 1024) (k : S1024x16384.Idx)
    (hk0 : (k 0).val = t.val / 16 * 256 + p.val) (hk1 : (k 1).val = t.val % 16 * 1024 + q.val) :
    (iblk m c 0 t : Vec Ideal S256x1024 .f32) (ix2 p q) = tArr m c k := by
  obtain ⟨e0, e1, -⟩ := idx_in t
  unfold iblk
  rw [View.read_apply]
  show V m c main_v0 _ = V m c main_v0 _
  congr 1
  funext a
  apply Fin.ext
  match a with
  | ⟨0, _⟩ => show win0_0.index t 0 * 256 + 1 * p.val = (k 0).val; rw [e0, hk0]; omega
  | ⟨1, _⟩ => show win0_0.index t 1 * 1024 + 1 * q.val = (k 1).val; rw [e1, hk1]; omega

/-- Entry `p` of a column block at `t` is the column's entry at row `b = 256·(t/16) + p`. -/
theorem rblk_apply (c : Dev nD) (t : Fin cfg0.N) (p : Fin 256) (b : Fin 1024) (hb : b.val = t.val / 16 * 256 + p.val) :
    (iblk m c 1 t : Vec Ideal S256x1 .f32) (ix2 p 0) = row (rArr m c) b := by
  obtain ⟨-, -, e0, e1, -⟩ := idx_in t
  unfold iblk
  rw [View.read_apply]
  show V m c main_arg1 _ = V m c main_arg1 (ix2 b 0)
  congr 1
  funext a
  apply Fin.ext
  match a with
  | ⟨0, _⟩ => show win0_1.index t 0 * 256 + 1 * p.val = b.val; rw [e0, hb]; omega
  | ⟨1, _⟩ => show win0_1.index t 1 * 1 + 1 * 0 = 0; rw [e1]
theorem thblk_apply (c : Dev nD) (t : Fin cfg0.N) (p : Fin 256) (b : Fin 1024) (hb : b.val = t.val / 16 * 256 + p.val) :
    (iblk m c 2 t : Vec Ideal S256x1 .f32) (ix2 p 0) = row (thArr m c) b := by
  obtain ⟨-, -, -, -, e0, e1, -⟩ := idx_in t
  unfold iblk
  rw [View.read_apply]
  show V m c main_arg2 _ = V m c main_arg2 (ix2 b 0)
  congr 1
  funext a
  apply Fin.ext
  match a with
  | ⟨0, _⟩ => show win0_2.index t 0 * 256 + 1 * p.val = b.val; rw [e0, hb]; omega
  | ⟨1, _⟩ => show win0_2.index t 1 * 1 + 1 * 0 = 0; rw [e1]
theorem wblk_apply (c : Dev nD) (t : Fin cfg0.N) (p : Fin 256) (b : Fin 1024) (hb : b.val = t.val / 16 * 256 + p.val) :
    (iblk m c 3 t : Vec Ideal S256x1 .f32) (ix2 p 0) = row (wArr m c) b := by
  obtain ⟨-, -, -, -, -, -, e0, e1⟩ := idx_in t
  unfold iblk
  rw [View.read_apply]
  show V m c main_arg3 _ = V m c main_arg3 (ix2 b 0)
  congr 1
  funext a
  apply Fin.ext
  match a with
  | ⟨0, _⟩ => show win0_3.index t 0 * 256 + 1 * p.val = b.val; rw [e0, hb]; omega
  | ⟨1, _⟩ => show win0_3.index t 1 * 1 + 1 * 0 = 0; rw [e1]

/-- The grid point whose blocks hold array index `i`: block row `i₀ / 256`, block column `i₁ / 1024`. -/
def pointOf (i : S1024x16384.Idx) : Fin cfg0.N :=
  ⟨(i 0).val / 256 * 16 + (i 1).val / 1024, by
    have hN : cfg0.N = 64 := N_0
    have h0 : (i 0).val < 1024 := (i 0).isLt
    have h1 : (i 1).val < 16384 := (i 1).isLt
    rw [hN]; omega⟩

theorem pointOf_val (i : S1024x16384.Idx) : (pointOf i).val = (i 0).val / 256 * 16 + (i 1).val / 1024 := rfl

/-! ## Output window 4: `r·cos θ` -/

theorem idx4 : ∀ t : Fin cfg0.N, win0_4.index t (0 : Fin 2) = t.val / 16 ∧ win0_4.index t (1 : Fin 2) = t.val % 16 :=
  (by decide +kernel : ∀ t : Fin grid0.N, _)

theorem flushed4 (c : Dev nD) (t : Fin cfg0.N) :
    (dats m 0 c).flushed 4 t = ((cfg0.win 4).blk t).view.read (Elt Ideal)
      (wave2 Ideal.cos (ampR (rArr m c)) (tArr m c) (thArr m c) (wArr m c)) := by
  obtain ⟨o0, o1⟩ := idx4 t
  show (cfg0.win 4).cut (grid0.coords t) ((dats m 0 c).after 4 t) = _
  rw [after0_4]
  unfold out0_4
  rw [View.canon_unit_zero hz]
  simp only [View.ld_unit_zero (S := S256x1024) hz, View.ld_unit_zero (S := S256x1) hz]
  funext y
  obtain ⟨p, q, rfl⟩ : ∃ (p : Fin 256) (q : Fin 1024), y = ix2 p q := ⟨y 0, y 1, eq_ix2 y⟩
  show k0_pay7 (iblk m c 0 t) (iblk m c 1 t) (iblk m c 2 t) (iblk m c 3 t) (ix2 p q)
    = wave2 Ideal.cos (ampR (rArr m c)) (tArr m c) (thArr m c) (wArr m c) (((cfg0.win 4).blk t).view.emb (ix2 p q))
  have hk0 : ((((cfg0.win 4).blk t).view.emb (ix2 p q)) 0).val = t.val / 16 * 256 + p.val := by
    show win0_4.index t 0 * 256 + 1 * p.val = _; rw [o0]; omega
  have hk1 : ((((cfg0.win 4).blk t).view.emb (ix2 p q)) 1).val = t.val % 16 * 1024 + q.val := by
    show win0_4.index t 1 * 1024 + 1 * q.val = _; rw [o1]; omega
  rw [qx_apply (iblk m c 0 t) (iblk m c 1 t) (iblk m c 2 t) (iblk m c 3 t) p q,
    rblk_apply m c t p _ hk0, wblk_apply m c t p _ hk0, thblk_apply m c t p _ hk0, tblk_apply m c t p q _ hk0 hk1]
  rfl

theorem cover4 (i : S1024x16384.Idx) :
    ∃ t : Fin cfg0.N, (cfg0.win 4).flush t = true ∧ i ∈ ((cfg0.win 4).blk t).view.set := by
  obtain ⟨o0, o1⟩ := idx4 (pointOf i)
  have ht := pointOf_val i
  have h0 : (i 0).val < 1024 := (i 0).isLt
  have h1 : (i 1).val < 16384 := (i 1).isLt
  refine ⟨pointOf i, flush0_4 _, ?_⟩
  show i ∈ ((View.whole main_v1_0).slice (win0_4.rect (pointOf i))).set
  rw [View.set_slice_whole, Rect.mem_set_unit]
  intro a
  match a with
  | ⟨0, _⟩ =>
    show win0_4.index (pointOf i) 0 * 256 ≤ (i 0).val ∧ (i 0).val < win0_4.index (pointOf i) 0 * 256 + 256
    rw [o0, ht]; omega
  | ⟨1, _⟩ =>
    show win0_4.index (pointOf i) 1 * 1024 ≤ (i 1).val ∧ (i 1).val < win0_4.index (pointOf i) 1 * 1024 + 1024
    rw [o1, ht]; omega

theorem final4 (c : Dev nD) :
    (dats m 0 c).arrAt 4 cfg0.N = wave2 Ideal.cos (ampR (rArr m c)) (tArr m c) (thArr m c) (wArr m c) :=
  (dats m 0 c).arrAt_eq_of_cover 4 _ (fun t _ => flushed4 m c t) cover4

/-! ## Output window 5: `r·sin θ` -/

theorem idx5 : ∀ t : Fin cfg0.N, win0_5.index t (0 : Fin 2) = t.val / 16 ∧ win0_5.index t (1 : Fin 2) = t.val % 16 :=
  (by decide +kernel : ∀ t : Fin grid0.N, _)

theorem flushed5 (c : Dev nD) (t : Fin cfg0.N) :
    (dats m 0 c).flushed 5 t = ((cfg0.win 5).blk t).view.read (Elt Ideal)
      (wave2 Ideal.sin (ampR (rArr m c)) (tArr m c) (thArr m c) (wArr m c)) := by
  obtain ⟨o0, o1⟩ := idx5 t
  show (cfg0.win 5).cut (grid0.coords t) ((dats m 0 c).after 5 t) = _
  rw [after0_5]
  unfold out0_5
  rw [View.canon_unit_zero hz]
  simp only [View.ld_unit_zero (S := S256x1024) hz, View.ld_unit_zero (S := S256x1) hz]
  funext y
  obtain ⟨p, q, rfl⟩ : ∃ (p : Fin 256) (q : Fin 1024), y = ix2 p q := ⟨y 0, y 1, eq_ix2 y⟩
  show k0_pay8 (iblk m c 0 t) (iblk m c 1 t) (iblk m c 2 t) (iblk m c 3 t) (ix2 p q)
    = wave2 Ideal.sin (ampR (rArr m c)) (tArr m c) (thArr m c) (wArr m c) (((cfg0.win 5).blk t).view.emb (ix2 p q))
  have hk0 : ((((cfg0.win 5).blk t).view.emb (ix2 p q)) 0).val = t.val / 16 * 256 + p.val := by
    show win0_5.index t 0 * 256 + 1 * p.val = _; rw [o0]; omega
  have hk1 : ((((cfg0.win 5).blk t).view.emb (ix2 p q)) 1).val = t.val % 16 * 1024 + q.val := by
    show win0_5.index t 1 * 1024 + 1 * q.val = _; rw [o1]; omega
  rw [qy_apply (iblk m c 0 t) (iblk m c 1 t) (iblk m c 2 t) (iblk m c 3 t) p q,
    rblk_apply m c t p _ hk0, wblk_apply m c t p _ hk0, thblk_apply m c t p _ hk0, tblk_apply m c t p q _ hk0 hk1]
  rfl

theorem cover5 (i : S1024x16384.Idx) :
    ∃ t : Fin cfg0.N, (cfg0.win 5).flush t = true ∧ i ∈ ((cfg0.win 5).blk t).view.set := by
  obtain ⟨o0, o1⟩ := idx5 (pointOf i)
  have ht := pointOf_val i
  have h0 : (i 0).val < 1024 := (i 0).isLt
  have h1 : (i 1).val < 16384 := (i 1).isLt
  refine ⟨pointOf i, flush0_5 _, ?_⟩
  show i ∈ ((View.whole main_v1_1).slice (win0_5.rect (pointOf i))).set
  rw [View.set_slice_whole, Rect.mem_set_unit]
  intro a
  match a with
  | ⟨0, _⟩ =>
    show win0_5.index (pointOf i) 0 * 256 ≤ (i 0).val ∧ (i 0).val < win0_5.index (pointOf i) 0 * 256 + 256
    rw [o0, ht]; omega
  | ⟨1, _⟩ =>
    show win0_5.index (pointOf i) 1 * 1024 ≤ (i 1).val ∧ (i 1).val < win0_5.index (pointOf i) 1 * 1024 + 1024
    rw [o1, ht]; omega

theorem final5 (c : Dev nD) :
    (dats m 0 c).arrAt 5 cfg0.N = wave2 Ideal.sin (ampR (rArr m c)) (tArr m c) (thArr m c) (wArr m c) :=
  (dats m 0 c).arrAt_eq_of_cover 5 _ (fun t _ => flushed5 m c t) cover5

/-! ## Output window 6: `−(r·ω)·sin θ` -/

theorem idx6 : ∀ t : Fin cfg0.N, win0_6.index t (0 : Fin 2) = t.val / 16 ∧ win0_6.index t (1 : Fin 2) = t.val % 16 :=
  (by decide +kernel : ∀ t : Fin grid0.N, _)

theorem flushed6 (c : Dev nD) (t : Fin cfg0.N) :
    (dats m 0 c).flushed 6 t = ((cfg0.win 6).blk t).view.read (Elt Ideal)
      (wave2 Ideal.sin (ampNegRW (rArr m c) (wArr m c)) (tArr m c) (thArr m c) (wArr m c)) := by
  obtain ⟨o0, o1⟩ := idx6 t
  show (cfg0.win 6).cut (grid0.coords t) ((dats m 0 c).after 6 t) = _
  rw [after0_6]
  unfold out0_6
  rw [View.canon_unit_zero hz]
  simp only [View.ld_unit_zero (S := S256x1024) hz, View.ld_unit_zero (S := S256x1) hz]
  funext y
  obtain ⟨p, q, rfl⟩ : ∃ (p : Fin 256) (q : Fin 1024), y = ix2 p q := ⟨y 0, y 1, eq_ix2 y⟩
  show k0_pay9 (iblk m c 0 t) (iblk m c 1 t) (iblk m c 2 t) (iblk m c 3 t) (ix2 p q)
    = wave2 Ideal.sin (ampNegRW (rArr m c) (wArr m c)) (tArr m c) (thArr m c) (wArr m c)
        (((cfg0.win 6).blk t).view.emb (ix2 p q))
  have hk0 : ((((cfg0.win 6).blk t).view.emb (ix2 p q)) 0).val = t.val / 16 * 256 + p.val := by
    show win0_6.index t 0 * 256 + 1 * p.val = _; rw [o0]; omega
  have hk1 : ((((cfg0.win 6).blk t).view.emb (ix2 p q)) 1).val = t.val % 16 * 1024 + q.val := by
    show win0_6.index t 1 * 1024 + 1 * q.val = _; rw [o1]; omega
  rw [vx_apply (iblk m c 0 t) (iblk m c 1 t) (iblk m c 2 t) (iblk m c 3 t) p q,
    rblk_apply m c t p _ hk0, wblk_apply m c t p _ hk0, thblk_apply m c t p _ hk0, tblk_apply m c t p q _ hk0 hk1]
  rfl

theorem cover6 (i : S1024x16384.Idx) :
    ∃ t : Fin cfg0.N, (cfg0.win 6).flush t = true ∧ i ∈ ((cfg0.win 6).blk t).view.set := by
  obtain ⟨o0, o1⟩ := idx6 (pointOf i)
  have ht := pointOf_val i
  have h0 : (i 0).val < 1024 := (i 0).isLt
  have h1 : (i 1).val < 16384 := (i 1).isLt
  refine ⟨pointOf i, flush0_6 _, ?_⟩
  show i ∈ ((View.whole main_v1_2).slice (win0_6.rect (pointOf i))).set
  rw [View.set_slice_whole, Rect.mem_set_unit]
  intro a
  match a with
  | ⟨0, _⟩ =>
    show win0_6.index (pointOf i) 0 * 256 ≤ (i 0).val ∧ (i 0).val < win0_6.index (pointOf i) 0 * 256 + 256
    rw [o0, ht]; omega
  | ⟨1, _⟩ =>
    show win0_6.index (pointOf i) 1 * 1024 ≤ (i 1).val ∧ (i 1).val < win0_6.index (pointOf i) 1 * 1024 + 1024
    rw [o1, ht]; omega

theorem final6 (c : Dev nD) :
    (dats m 0 c).arrAt 6 cfg0.N
      = wave2 Ideal.sin (ampNegRW (rArr m c) (wArr m c)) (tArr m c) (thArr m c) (wArr m c) :=
  (dats m 0 c).arrAt_eq_of_cover 6 _ (fun t _ => flushed6 m c t) cover6

/-! ## Output window 7: `(r·ω)·cos θ` -/

theorem idx7 : ∀ t : Fin cfg0.N, win0_7.index t (0 : Fin 2) = t.val / 16 ∧ win0_7.index t (1 : Fin 2) = t.val % 16 :=
  (by decide +kernel : ∀ t : Fin grid0.N, _)

theorem flushed7 (c : Dev nD) (t : Fin cfg0.N) :
    (dats m 0 c).flushed 7 t = ((cfg0.win 7).blk t).view.read (Elt Ideal)
      (wave2 Ideal.cos (ampRW (rArr m c) (wArr m c)) (tArr m c) (thArr m c) (wArr m c)) := by
  obtain ⟨o0, o1⟩ := idx7 t
  show (cfg0.win 7).cut (grid0.coords t) ((dats m 0 c).after 7 t) = _
  rw [after0_7]
  unfold out0_7
  rw [View.canon_unit_zero hz]
  simp only [View.ld_unit_zero (S := S256x1024) hz, View.ld_unit_zero (S := S256x1) hz]
  funext y
  obtain ⟨p, q, rfl⟩ : ∃ (p : Fin 256) (q : Fin 1024), y = ix2 p q := ⟨y 0, y 1, eq_ix2 y⟩
  show k0_pay10 (iblk m c 0 t) (iblk m c 1 t) (iblk m c 2 t) (iblk m c 3 t) (ix2 p q)
    = wave2 Ideal.cos (ampRW (rArr m c) (wArr m c)) (tArr m c) (thArr m c) (wArr m c)
        (((cfg0.win 7).blk t).view.emb (ix2 p q))
  have hk0 : ((((cfg0.win 7).blk t).view.emb (ix2 p q)) 0).val = t.val / 16 * 256 + p.val := by
    show win0_7.index t 0 * 256 + 1 * p.val = _; rw [o0]; omega
  have hk1 : ((((cfg0.win 7).blk t).view.emb (ix2 p q)) 1).val = t.val % 16 * 1024 + q.val := by
    show win0_7.index t 1 * 1024 + 1 * q.val = _; rw [o1]; omega
  rw [vy_apply (iblk m c 0 t) (iblk m c 1 t) (iblk m c 2 t) (iblk m c 3 t) p q,
    rblk_apply m c t p _ hk0, wblk_apply m c t p _ hk0, thblk_apply m c t p _ hk0, tblk_apply m c t p q _ hk0 hk1]
  rfl

theorem cover7 (i : S1024x16384.Idx) :
    ∃ t : Fin cfg0.N, (cfg0.win 7).flush t = true ∧ i ∈ ((cfg0.win 7).blk t).view.set := by
  obtain ⟨o0, o1⟩ := idx7 (pointOf i)
  have ht := pointOf_val i
  have h0 : (i 0).val < 1024 := (i 0).isLt
  have h1 : (i 1).val < 16384 := (i 1).isLt
  refine ⟨pointOf i, flush0_7 _, ?_⟩
  show i ∈ ((View.whole main_v1_3).slice (win0_7.rect (pointOf i))).set
  rw [View.set_slice_whole, Rect.mem_set_unit]
  intro a
  match a with
  | ⟨0, _⟩ =>
    show win0_7.index (pointOf i) 0 * 256 ≤ (i 0).val ∧ (i 0).val < win0_7.index (pointOf i) 0 * 256 + 256
    rw [o0, ht]; omega
  | ⟨1, _⟩ =>
    show win0_7.index (pointOf i) 1 * 1024 ≤ (i 1).val ∧ (i 1).val < win0_7.index (pointOf i) 1 * 1024 + 1024
    rw [o1, ht]; omega

theorem final7 (c : Dev nD) :
    (dats m 0 c).arrAt 7 cfg0.N
      = wave2 Ideal.cos (ampRW (rArr m c) (wArr m c)) (tArr m c) (thArr m c) (wArr m c) :=
  (dats m 0 c).arrAt_eq_of_cover 7 _ (fun t _ => flushed7 m c t) cover7

/-! ## Output window 8: `−((r·ω)·ω)·cos θ` -/

theorem idx8 : ∀ t : Fin cfg0.N, win0_8.index t (0 : Fin 2) = t.val / 16 ∧ win0_8.index t (1 : Fin 2) = t.val % 16 :=
  (by decide +kernel : ∀ t : Fin grid0.N, _)

theorem flushed8 (c : Dev nD) (t : Fin cfg0.N) :
    (dats m 0 c).flushed 8 t = ((cfg0.win 8).blk t).view.read (Elt Ideal)
      (wave2 Ideal.cos (ampNegRWW (rArr m c) (wArr m c)) (tArr m c) (thArr m c) (wArr m c)) := by
  obtain ⟨o0, o1⟩ := idx8 t
  show (cfg0.win 8).cut (grid0.coords t) ((dats m 0 c).after 8 t) = _
  rw [after0_8]
  unfold out0_8
  rw [View.canon_unit_zero hz]
  simp only [View.ld_unit_zero (S := S256x1024) hz, View.ld_unit_zero (S := S256x1) hz]
  funext y
  obtain ⟨p, q, rfl⟩ : ∃ (p : Fin 256) (q : Fin 1024), y = ix2 p q := ⟨y 0, y 1, eq_ix2 y⟩
  show k0_pay11 (iblk m c 0 t) (iblk m c 1 t) (iblk m c 2 t) (iblk m c 3 t) (ix2 p q)
    = wave2 Ideal.cos (ampNegRWW (rArr m c) (wArr m c)) (tArr m c) (thArr m c) (wArr m c)
        (((cfg0.win 8).blk t).view.emb (ix2 p q))
  have hk0 : ((((cfg0.win 8).blk t).view.emb (ix2 p q)) 0).val = t.val / 16 * 256 + p.val := by
    show win0_8.index t 0 * 256 + 1 * p.val = _; rw [o0]; omega
  have hk1 : ((((cfg0.win 8).blk t).view.emb (ix2 p q)) 1).val = t.val % 16 * 1024 + q.val := by
    show win0_8.index t 1 * 1024 + 1 * q.val = _; rw [o1]; omega
  rw [ax_apply (iblk m c 0 t) (iblk m c 1 t) (iblk m c 2 t) (iblk m c 3 t) p q,
    rblk_apply m c t p _ hk0, wblk_apply m c t p _ hk0, thblk_apply m c t p _ hk0, tblk_apply m c t p q _ hk0 hk1]
  rfl

theorem cover8 (i : S1024x16384.Idx) :
    ∃ t : Fin cfg0.N, (cfg0.win 8).flush t = true ∧ i ∈ ((cfg0.win 8).blk t).view.set := by
  obtain ⟨o0, o1⟩ := idx8 (pointOf i)
  have ht := pointOf_val i
  have h0 : (i 0).val < 1024 := (i 0).isLt
  have h1 : (i 1).val < 16384 := (i 1).isLt
  refine ⟨pointOf i, flush0_8 _, ?_⟩
  show i ∈ ((View.whole main_v1_4).slice (win0_8.rect (pointOf i))).set
  rw [View.set_slice_whole, Rect.mem_set_unit]
  intro a
  match a with
  | ⟨0, _⟩ =>
    show win0_8.index (pointOf i) 0 * 256 ≤ (i 0).val ∧ (i 0).val < win0_8.index (pointOf i) 0 * 256 + 256
    rw [o0, ht]; omega
  | ⟨1, _⟩ =>
    show win0_8.index (pointOf i) 1 * 1024 ≤ (i 1).val ∧ (i 1).val < win0_8.index (pointOf i) 1 * 1024 + 1024
    rw [o1, ht]; omega

theorem final8 (c : Dev nD) :
    (dats m 0 c).arrAt 8 cfg0.N
      = wave2 Ideal.cos (ampNegRWW (rArr m c) (wArr m c)) (tArr m c) (thArr m c) (wArr m c) :=
  (dats m 0 c).arrAt_eq_of_cover 8 _ (fun t _ => flushed8 m c t) cover8

/-! ## Output window 9: `−((r·ω)·ω)·sin θ` -/

theorem idx9 : ∀ t : Fin cfg0.N, win0_9.index t (0 : Fin 2) = t.val / 16 ∧ win0_9.index t (1 : Fin 2) = t.val % 16 :=
  (by decide +kernel : ∀ t : Fin grid0.N, _)

theorem flushed9 (c : Dev nD) (t : Fin cfg0.N) :
    (dats m 0 c).flushed 9 t = ((cfg0.win 9).blk t).view.read (Elt Ideal)
      (wave2 Ideal.sin (ampNegRWW (rArr m c) (wArr m c)) (tArr m c) (thArr m c) (wArr m c)) := by
  obtain ⟨o0, o1⟩ := idx9 t
  show (cfg0.win 9).cut (grid0.coords t) ((dats m 0 c).after 9 t) = _
  rw [after0_9]
  unfold out0_9
  rw [View.canon_unit_zero hz]
  simp only [View.ld_unit_zero (S := S256x1024) hz, View.ld_unit_zero (S := S256x1) hz]
  funext y
  obtain ⟨p, q, rfl⟩ : ∃ (p : Fin 256) (q : Fin 1024), y = ix2 p q := ⟨y 0, y 1, eq_ix2 y⟩
  show k0_pay1 (k0_pay4 (iblk m c 0 t) (iblk m c 2 t) (iblk m c 3 t)) (k0_pay6 (iblk m c 1 t) (iblk m c 3 t))
      (Scalar.ofBits (F := Ideal) .f32 0x00000000#32) (ix2 p q)
    = wave2 Ideal.sin (ampNegRWW (rArr m c) (wArr m c)) (tArr m c) (thArr m c) (wArr m c)
        (((cfg0.win 9).blk t).view.emb (ix2 p q))
  have hk0 : ((((cfg0.win 9).blk t).view.emb (ix2 p q)) 0).val = t.val / 16 * 256 + p.val := by
    show win0_9.index t 0 * 256 + 1 * p.val = _; rw [o0]; omega
  have hk1 : ((((cfg0.win 9).blk t).view.emb (ix2 p q)) 1).val = t.val % 16 * 1024 + q.val := by
    show win0_9.index t 1 * 1024 + 1 * q.val = _; rw [o1]; omega
  rw [ay_apply (iblk m c 0 t) (iblk m c 1 t) (iblk m c 2 t) (iblk m c 3 t) p q,
    rblk_apply m c t p _ hk0, wblk_apply m c t p _ hk0, thblk_apply m c t p _ hk0, tblk_apply m c t p q _ hk0 hk1]
  rfl

theorem cover9 (i : S1024x16384.Idx) :
    ∃ t : Fin cfg0.N, (cfg0.win 9).flush t = true ∧ i ∈ ((cfg0.win 9).blk t).view.set := by
  obtain ⟨o0, o1⟩ := idx9 (pointOf i)
  have ht := pointOf_val i
  have h0 : (i 0).val < 1024 := (i 0).isLt
  have h1 : (i 1).val < 16384 := (i 1).isLt
  refine ⟨pointOf i, flush0_9 _, ?_⟩
  show i ∈ ((View.whole main_v1_5).slice (win0_9.rect (pointOf i))).set
  rw [View.set_slice_whole, Rect.mem_set_unit]
  intro a
  match a with
  | ⟨0, _⟩ =>
    show win0_9.index (pointOf i) 0 * 256 ≤ (i 0).val ∧ (i 0).val < win0_9.index (pointOf i) 0 * 256 + 256
    rw [o0, ht]; omega
  | ⟨1, _⟩ =>
    show win0_9.index (pointOf i) 1 * 1024 ≤ (i 1).val ∧ (i 1).val < win0_9.index (pointOf i) 1 * 1024 + 1024
    rw [o1, ht]; omega

theorem final9 (c : Dev nD) :
    (dats m 0 c).arrAt 9 cfg0.N
      = wave2 Ideal.sin (ampNegRWW (rArr m c) (wArr m c)) (tArr m c) (thArr m c) (wArr m c) :=
  (dats m 0 c).arrAt_eq_of_cover 9 _ (fun t _ => flushed9 m c t) cover9

end Cert.KernelIdeal.Planes

end
-- ==== Proof.KernelResults.lean ====
/-
  The kernel program's three results, and its run.

  Before the region the time array is reshaped from [1024, 16384, 1] to [1024, 16384]: the same numbers in
  row-major order, so entry `(b, s)` of the reshaped array is entry `(b, s, 0)` of the argument. After the region each
  of the six [1024, 16384] planes is given a trailing axis of extent 1 and the planes are joined in pairs on it. A
  plane `Motion.wave2` over the reshaped time array, so lifted, is `Motion.wave` over the argument, and the three
  joined pairs are `Motion.position`, `velocity`, `acceleration` of the four arguments.
-/
import proofs.«105996_j14250701488835_1_alg».proof.Proof.KernelPlanes
import Idealize.ShloMosaic.Lib.StableHlo.Run

set_option maxRecDepth 16384

noncomputable section

namespace Cert.KernelIdeal.Results

open Cert.KernelIdeal Cert.KernelIdeal.Gen Cert.KernelIdeal.Planes Idealize.ShloMosaic Idealize.ShloMosaic.TcCoe
open Idealize.SL.Sem Idealize.ShloMosaic.ValueIdx Idealize.ShloMosaic.StableHlo Cert.Motion
open Idealize.ShloMosaic.Pipeline (Dat)

variable (m : (ℓ : Loc nD τ sig) → Buf (Elt Ideal) ℓ) (ρ : Dev nD → PrngReg)

/-- The reshaped time array at `(b, s)` is the argument at `(b, s, 0)`. -/
theorem tArr_apply (c : Dev nD) (i : S1024x16384x1.Idx) :
    tArr m c (ix2 (i 0) (i 1)) = m ((c : Thread nD τ).loc main_arg0) i := by
  have e : tArr m c
      = shapeCast S1024x16384 (m ((c : Thread nD τ).loc main_arg0)) shapeCasts_S1024x16384x1_S1024x16384 := by
    show StableHlo.after hostOps0 (fun b => m (c, b)) (Proc.devRef .tc main_v0) = _
    after_results
    rfl
  rw [e]
  refine shapeCast_apply _ _ _ i ?_
  rw [Shape.rowMajor_val_three, Shape.rowMajor_val_two]
  have h2 : (i 2).val < 1 := (i 2).isLt
  show ((i 0).val * 16384 + (i 1).val) * 1 + (i 2).val = (i 0).val * 16384 + (i 1).val
  omega

/-- A plane over the reshaped time array, given its trailing unit axis, is the plane over the argument. -/
theorem lift_plane (f : EReal → EReal) (amp : Fin 1024 → EReal) (c : Dev nD) :
    broadcastInDim S1024x16384x1 ![0, 1] bcast_S1024x16384_S1024x16384x1_0_1
        (wave2 f amp (tArr m c) (thArr m c) (wArr m c))
      = wave f amp (m ((c : Thread nD τ).loc main_arg0)) (m ((c : Thread nD τ).loc main_arg2))
          (m ((c : Thread nD τ).loc main_arg3)) := by
  funext i
  rw [broadcastInDim_apply _ bcast_S1024x16384_S1024x16384x1_0_1 _ i (ix2 (i 0) (i 1)) (fun a => match a with
    | ⟨0, _⟩ => by show (i 0).val = if (1024 : Nat) = 1 then 0 else (i 0).val; rw [if_neg (by decide)]
    | ⟨1, _⟩ => by show (i 1).val = if (16384 : Nat) = 1 then 0 else (i 1).val; rw [if_neg (by decide)])]
  rw [show thArr m c = m ((c : Thread nD τ).loc main_arg2) from V_main_arg2 m c,
    show wArr m c = m ((c : Thread nD τ).loc main_arg3) from V_main_arg3 m c]
  exact wave_of_wave2 f amp _ _ _ _ i (tArr_apply m c i)

/-- The radius and angular-velocity columns the amplitudes are made of are the arguments'. -/
theorem rArr_eq (c : Dev nD) : rArr m c = m ((c : Thread nD τ).loc main_arg1) := V_main_arg1 m c
theorem wArr_eq (c : Dev nD) : wArr m c = m ((c : Thread nD τ).loc main_arg3) := V_main_arg3 m c

/-- What the lines after the region leave in the three result buffers. -/
theorem position_eq (c : Dev nD) :
    Pipeline.afterTail₀ cfgs (dats m) 0 (V0 m) [hostOps1] c main_v4
      = position (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v4) = _
  after_results
  rw [Pipeline.withArrays_arr spec0 launch0.win.arr_inj c _ _ 4, Pipeline.withArrays_arr spec0 launch0.win.arr_inj c _ _ 5,
    final4, final5, lift_plane, lift_plane, rArr_eq]
  rfl

theorem velocity_eq (c : Dev nD) :
    Pipeline.afterTail₀ cfgs (dats m) 0 (V0 m) [hostOps1] c main_v7
      = velocity (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v7) = _
  after_results
  rw [Pipeline.withArrays_arr spec0 launch0.win.arr_inj c _ _ 6, Pipeline.withArrays_arr spec0 launch0.win.arr_inj c _ _ 7,
    final6, final7, lift_plane, lift_plane, rArr_eq, wArr_eq]
  rfl

theorem acceleration_eq (c : Dev nD) :
    Pipeline.afterTail₀ cfgs (dats m) 0 (V0 m) [hostOps1] c main_v10
      = acceleration (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v10) = _
  after_results
  rw [Pipeline.withArrays_arr spec0 launch0.win.arr_inj c _ _ 8, Pipeline.withArrays_arr spec0 launch0.win.arr_inj c _ _ 9,
    final8, final9, lift_plane, lift_plane, rArr_eq, wArr_eq]
  rfl

/-- The run: every weakly fair execution terminates with the three results at the motion's position, velocity
    and acceleration of the arguments, the arguments unchanged. -/
theorem run : θ_run defs (onTc (τ := τ) (main (F := Ideal))) ⟨m, fun _ => 0, ρ⟩ fun r => ∀ c : Dev nD,
      r.2.mem ((c.tc : Thread nD τ).loc main_v4)
          = position (m ((c : Thread nD τ).loc main_arg0)) (m ((c : Thread nD τ).loc main_arg1))
              (m ((c : Thread nD τ).loc main_arg2)) (m ((c : Thread nD τ).loc main_arg3))
      ∧ r.2.mem ((c.tc : Thread nD τ).loc main_v7)
          = velocity (m ((c : Thread nD τ).loc main_arg0)) (m ((c : Thread nD τ).loc main_arg1))
              (m ((c : Thread nD τ).loc main_arg2)) (m ((c : Thread nD τ).loc main_arg3))
      ∧ r.2.mem ((c.tc : Thread nD τ).loc main_v10)
          = acceleration (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (position_eq m c),
      ((h c).2 main_v7 (Pipeline.mem_restRefs_of main_v7 (by decide) (by decide))).trans (velocity_eq m c),
      ((h c).2 main_v10 (Pipeline.mem_restRefs_of main_v10 (by decide) (by decide))).trans (acceleration_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Results

end
-- ==== Proof.lean ====
/-
  Uniform circular motion: position, velocity and acceleration of 1024 particles at 16384 times each.

  With phase `θ = ω·t + θ₀` both programs compute
    position      r·(cos θ, sin θ),
    velocity      (r·ω)·(−sin θ, cos θ),
    acceleration  −((r·ω)·ω)·(cos θ, sin θ),
  as three [1024, 16384, 2] arrays. The kernel works on the time array reshaped to [1024, 16384], block by block over
  a 4 × 16 grid, writes six [1024, 16384] planes and joins them in pairs afterwards; the reference broadcasts the
  three columns and works on [1024, 16384, 1] arrays throughout. The two differ in how the minus signs are spelt
  (`0 − r·ω` against `(−r)·ω`, and likewise with one more factor `ω`), which on the extended reals is
  `0 − x = −x` and `(−a)·b = −(a·b)`: no finiteness is needed, and the cosine and sine of the kernel and of the host are
  one function. Both sides are shown to be `Motion.position`, `Motion.velocity`, `Motion.acceleration` of the arguments.
  The ideal pass's ledger is empty (Defs.lean), so `preserves_Kernel_KernelIdeal` is `True`.
-/
import proofs.«105996_j14250701488835_1_alg».proof.Defs
import proofs.«105996_j14250701488835_1_alg».proof.Proof.Gen.Kernel
import proofs.«105996_j14250701488835_1_alg».proof.Proof.Gen.Kernel.Skeleton
import proofs.«105996_j14250701488835_1_alg».proof.Proof.Gen.Kernel.Launch
import proofs.«105996_j14250701488835_1_alg».proof.Proof.Gen.Kernel.Points
import proofs.«105996_j14250701488835_1_alg».proof.Proof.Gen.Kernel.Frame
import proofs.«105996_j14250701488835_1_alg».proof.Proof.Gen.KernelIdeal
import proofs.«105996_j14250701488835_1_alg».proof.Proof.Gen.KernelIdeal.Skeleton
import proofs.«105996_j14250701488835_1_alg».proof.Proof.Gen.KernelIdeal.Launch
import proofs.«105996_j14250701488835_1_alg».proof.Proof.Gen.KernelIdeal.Points
import proofs.«105996_j14250701488835_1_alg».proof.Proof.Gen.KernelIdeal.Frame
import proofs.«105996_j14250701488835_1_alg».proof.Proof.Gen.ReferenceIdeal
import proofs.«105996_j14250701488835_1_alg».proof.Proof.Gen.Pre_finite_inputs
import proofs.«105996_j14250701488835_1_alg».proof.Proof.RefRun
import proofs.«105996_j14250701488835_1_alg».proof.Proof.RefRead
import proofs.«105996_j14250701488835_1_alg».proof.Proof.RefPlanes
import proofs.«105996_j14250701488835_1_alg».proof.Proof.KernelResults
import Idealize.ShloMosaic.Adequacy
import Idealize.ShloMosaic.Init

noncomputable section

namespace Cert.Proof

open Idealize.ShloMosaic Idealize.SL.Sem Cert.Motion

/-- The reference runs and leaves its arguments as they were: its run with the three results dropped. -/
theorem frame_reference : Cert.frame_ReferenceIdeal := fun m ρ _ =>
  (θ_run Cert.ReferenceIdeal.defs _ _).mono (fun _ h c => (h c).2.2.2)
    (Cert.ReferenceIdeal.RunP.run (F := Ideal) m ρ)

/-- From memories that agree on the four arguments the two programs end with the same three arrays: the motion's
    position, velocity and acceleration of those arguments. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_)
    (Cert.ReferenceIdeal.RunP.run (F := Ideal) m' ρ')
  obtain ⟨h13, h21, h32, hargs⟩ := h c
  obtain ⟨a0, a1, a2, a3⟩ := hagree c
  refine ⟨?_, ?_, ?_, hargs⟩
  · exact h13.trans ((Cert.ReferenceIdeal.ReadP.val_main_v13_eq _ _ _ _).trans
      ((Cert.ReferenceIdeal.Planes.position_eq _ _ _ _).trans (by rw [a0, a1, a2, a3])))
  · exact h21.trans ((Cert.ReferenceIdeal.ReadP.val_main_v21_eq _ _ _ _).trans
      ((Cert.ReferenceIdeal.Planes.velocity_eq _ _ _ _).trans (by rw [a0, a1, a2, a3])))
  · exact h32.trans ((Cert.ReferenceIdeal.ReadP.val_main_v32_eq _ _ _ _).trans
      ((Cert.ReferenceIdeal.Planes.acceleration_eq _ _ _ _).trans (by rw [a0, a1, a2, a3])))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
